-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x16384x4 : Shape := ⟨3, ![6, 16384, 4]⟩
abbrev S_ : Shape := ⟨0, ![]⟩

class Facts : Prop where
  bcast_S_S6x16384x4 : S_.BroadcastsInDim S6x16384x4 (![] : Fin 0 → Fin S6x16384x4.rank)
  reducesTo_S6x16384x4_S_d0_1_2 : S6x16384x4.ReducesTo [0, 1, 2] S_
  h_S_ : 0 < S_.numel

variable [Facts]

def fn {F : FTy → Type} [FloatOps F] (main_arg0 : FVec F S6x16384x4 .f32) : IVec S_ 1 :=
  let main_v0 : FVec F S6x16384x4 .f32 := Host.absf main_arg0
  let main_cst : FVec F S_ .f32 := constant S_ .f32 0x7F800000#32
  let main_v1 : FVec F S6x16384x4 .f32 := broadcastInDim S6x16384x4 ![] bcast_S_S6x16384x4 main_cst
  let main_v2 : IVec S6x16384x4 1 := cmpf .olt main_v0 main_v1
  let main_c : IVec S_ 1 := constantI S_ 1 1#1
  let main_v3 : IVec S_ 1 := (fun x v => Host.reduce IntOp.andi x v reducesTo_S6x16384x4_S_d0_1_2 h_S_) main_v2 main_c
  main_v3
-- ==== Kernel.lean ====
abbrev S6x16384x4 : Shape := ⟨3, ![6, 16384, 4]⟩
abbrev S16384x4096 : Shape := ⟨2, ![16384, 4096]⟩
abbrev S6x256x4 : Shape := ⟨3, ![6, 256, 4]⟩
abbrev S256x4096 : Shape := ⟨2, ![256, 4096]⟩
abbrev S1x256x4 : Shape := ⟨3, ![1, 256, 4]⟩
abbrev S256x4 : Shape := ⟨2, ![256, 4]⟩
abbrev S256x4x1 : Shape := ⟨3, ![256, 4, 1]⟩
abbrev S256x1x4 : Shape := ⟨3, ![256, 1, 4]⟩
abbrev S256x4x4 : Shape := ⟨3, ![256, 4, 4]⟩
abbrev S256x16 : Shape := ⟨2, ![256, 16]⟩
abbrev S256x16x1 : Shape := ⟨3, ![256, 16, 1]⟩
abbrev S256x16x4 : Shape := ⟨3, ![256, 16, 4]⟩
abbrev S256x64 : Shape := ⟨2, ![256, 64]⟩
abbrev S256x64x1 : Shape := ⟨3, ![256, 64, 1]⟩
abbrev S256x64x4 : Shape := ⟨3, ![256, 64, 4]⟩
abbrev S256x256 : Shape := ⟨2, ![256, 256]⟩
abbrev S256x256x1 : Shape := ⟨3, ![256, 256, 1]⟩
abbrev S256x256x4 : Shape := ⟨3, ![256, 256, 4]⟩
abbrev S256x1024 : Shape := ⟨2, ![256, 1024]⟩
abbrev S256x1024x1 : Shape := ⟨3, ![256, 1024, 1]⟩
abbrev S256x1024x4 : Shape := ⟨3, ![256, 1024, 4]⟩

abbrev nBuf : Space → Nat
  | .hbm => 2
  | .vmem => 4
  | .smem => 0
  | _ => 0

abbrev bufTy : (tb : Table) → Fin (tcTables nBuf tb) → BufTy
  | .hbm, ⟨0, _⟩ => ⟨S6x16384x4, .f32⟩
  | .hbm, ⟨1, _⟩ => ⟨S16384x4096, .f32⟩
  | .local _ .vmem, ⟨0, _⟩ => ⟨S6x256x4, .f32⟩
  | .local _ .vmem, ⟨1, _⟩ => ⟨S6x256x4, .f32⟩
  | .local _ .vmem, ⟨2, _⟩ => ⟨S256x4096, .f32⟩
  | .local _ .vmem, ⟨3, _⟩ => ⟨S256x4096, .f32⟩
  | _, _ => ⟨S6x16384x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6x256x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S6x256x4_S1x256x4_0_0_0 : ∀ a, (![0, 0, 0] : Fin 3 → Nat) a + S1x256x4.size a ≤ S6x256x4.size a
  h_S1x256x4 : 0 < S1x256x4.numel
  shapeCasts_S1x256x4_S256x4 : S1x256x4.ShapeCasts S256x4
  inb_S6x256x4_S1x256x4_1_0_0 : ∀ a, (![1, 0, 0] : Fin 3 → Nat) a + S1x256x4.size a ≤ S6x256x4.size a
  shapeCasts_S256x4_S256x4x1 : S256x4.ShapeCasts S256x4x1
  shapeCasts_S256x4_S256x1x4 : S256x4.ShapeCasts S256x1x4
  broadcasts_S256x4x1_S256x4x4 : S256x4x1.Broadcasts S256x4x4
  broadcasts_S256x1x4_S256x4x4 : S256x1x4.Broadcasts S256x4x4
  shapeCasts_S256x4x4_S256x16 : S256x4x4.ShapeCasts S256x16
  inb_S6x256x4_S1x256x4_2_0_0 : ∀ a, (![2, 0, 0] : Fin 3 → Nat) a + S1x256x4.size a ≤ S6x256x4.size a
  shapeCasts_S256x16_S256x16x1 : S256x16.ShapeCasts S256x16x1
  broadcasts_S256x16x1_S256x16x4 : S256x16x1.Broadcasts S256x16x4
  broadcasts_S256x1x4_S256x16x4 : S256x1x4.Broadcasts S256x16x4
  shapeCasts_S256x16x4_S256x64 : S256x16x4.ShapeCasts S256x64
  inb_S6x256x4_S1x256x4_3_0_0 : ∀ a, (![3, 0, 0] : Fin 3 → Nat) a + S1x256x4.size a ≤ S6x256x4.size a
  shapeCasts_S256x64_S256x64x1 : S256x64.ShapeCasts S256x64x1
  broadcasts_S256x64x1_S256x64x4 : S256x64x1.Broadcasts S256x64x4
  broadcasts_S256x1x4_S256x64x4 : S256x1x4.Broadcasts S256x64x4
  shapeCasts_S256x64x4_S256x256 : S256x64x4.ShapeCasts S256x256
  inb_S6x256x4_S1x256x4_4_0_0 : ∀ a, (![4, 0, 0] : Fin 3 → Nat) a + S1x256x4.size a ≤ S6x256x4.size a
  shapeCasts_S256x256_S256x256x1 : S256x256.ShapeCasts S256x256x1
  broadcasts_S256x256x1_S256x256x4 : S256x256x1.Broadcasts S256x256x4
  broadcasts_S256x1x4_S256x256x4 : S256x1x4.Broadcasts S256x256x4
  shapeCasts_S256x256x4_S256x1024 : S256x256x4.ShapeCasts S256x1024
  inb_S6x256x4_S1x256x4_5_0_0 : ∀ a, (![5, 0, 0] : Fin 3 → Nat) a + S1x256x4.size a ≤ S6x256x4.size a
  shapeCasts_S256x1024_S256x1024x1 : S256x1024.ShapeCasts S256x1024x1
  broadcasts_S256x1024x1_S256x1024x4 : S256x1024x1.Broadcasts S256x1024x4
  broadcasts_S256x1x4_S256x1024x4 : S256x1x4.Broadcasts S256x1024x4
  shapeCasts_S256x1024x4_S256x4096 : S256x1024x4.ShapeCasts S256x4096
  inb_S256x4096_S256x4096_0_0 : ∀ a, (![0, 0] : Fin 2 → Nat) a + S256x4096.size a ≤ S256x4096.size a
  h_S256x4096 : 0 < S256x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x256x4.size a ≤ S6x16384x4.size a
  hwx0_0 : ∀ i : grid0.Coords, EltTy.bits .f32 = 32 ∨ (Rect.block (s := S6x16384x4) S6x256x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)

variable [Facts₀]

abbrev win0_0 : Pipeline.Window sig grid0 :=
  Pipeline.Window.ofSpec (Memref.whole main_arg0) S6x256x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S6x16384x4 : Shape := ⟨3, ![6, 16384, 4]⟩
abbrev S1x16384x4 : Shape := ⟨3, ![1, 16384, 4]⟩
abbrev S16384x4 : Shape := ⟨2, ![16384, 4]⟩
abbrev S16384x4x1 : Shape := ⟨3, ![16384, 4, 1]⟩
abbrev S16384x1x4 : Shape := ⟨3, ![16384, 1, 4]⟩
abbrev S16384x4x4 : Shape := ⟨3, ![16384, 4, 4]⟩
abbrev S16384x16 : Shape := ⟨2, ![16384, 16]⟩
abbrev S16384x16x1 : Shape := ⟨3, ![16384, 16, 1]⟩
abbrev S16384x16x4 : Shape := ⟨3, ![16384, 16, 4]⟩
abbrev S16384x64 : Shape := ⟨2, ![16384, 64]⟩
abbrev S16384x64x1 : Shape := ⟨3, ![16384, 64, 1]⟩
abbrev S16384x64x4 : Shape := ⟨3, ![16384, 64, 4]⟩
abbrev S16384x256 : Shape := ⟨2, ![16384, 256]⟩
abbrev S16384x256x1 : Shape := ⟨3, ![16384, 256, 1]⟩
abbrev S16384x256x4 : Shape := ⟨3, ![16384, 256, 4]⟩
abbrev S16384x1024 : Shape := ⟨2, ![16384, 1024]⟩
abbrev S16384x1024x1 : Shape := ⟨3, ![16384, 1024, 1]⟩
abbrev S16384x1024x4 : Shape := ⟨3, ![16384, 1024, 4]⟩
abbrev S16384x4096 : Shape := ⟨2, ![16384, 4096]⟩

abbrev nBuf : Space → Nat
  | .hbm => 43
  | .vmem => 0
  | .smem => 0
  | _ => 0

abbrev bufTy : (tb : Table) → Fin (tcTables nBuf tb) → BufTy
  | .hbm, ⟨0, _⟩ => ⟨S6x16384x4, .f32⟩
  | .hbm, ⟨1, _⟩ => ⟨S1x16384x4, .f32⟩
  | .hbm, ⟨2, _⟩ => ⟨S16384x4, .f32⟩
  | .hbm, ⟨3, _⟩ => ⟨S16384x4x1, .f32⟩
  | .hbm, ⟨4, _⟩ => ⟨S1x16384x4, .f32⟩
  | .hbm, ⟨5, _⟩ => ⟨S16384x4, .f32⟩
  | .hbm, ⟨6, _⟩ => ⟨S16384x1x4, .f32⟩
  | .hbm, ⟨7, _⟩ => ⟨S16384x4x4, .f32⟩
  | .hbm, ⟨8, _⟩ => ⟨S16384x4x4, .f32⟩
  | .hbm, ⟨9, _⟩ => ⟨S16384x4x4, .f32⟩
  | .hbm, ⟨10, _⟩ => ⟨S16384x16, .f32⟩
  | .hbm, ⟨11, _⟩ => ⟨S16384x16x1, .f32⟩
  | .hbm, ⟨12, _⟩ => ⟨S1x16384x4, .f32⟩
  | .hbm, ⟨13, _⟩ => ⟨S16384x4, .f32⟩
  | .hbm, ⟨14, _⟩ => ⟨S16384x1x4, .f32⟩
  | .hbm, ⟨15, _⟩ => ⟨S16384x16x4, .f32⟩
  | .hbm, ⟨16, _⟩ => ⟨S16384x16x4, .f32⟩
  | .hbm, ⟨17, _⟩ => ⟨S16384x16x4, .f32⟩
  | .hbm, ⟨18, _⟩ => ⟨S16384x64, .f32⟩
  | .hbm, ⟨19, _⟩ => ⟨S16384x64x1, .f32⟩
  | .hbm, ⟨20, _⟩ => ⟨S1x16384x4, .f32⟩
  | .hbm, ⟨21, _⟩ => ⟨S16384x4, .f32⟩
  | .hbm, ⟨22, _⟩ => ⟨S16384x1x4, .f32⟩
  | .hbm, ⟨23, _⟩ => ⟨S16384x64x4, .f32⟩
  | .hbm, ⟨24, _⟩ => ⟨S16384x64x4, .f32⟩
  | .hbm, ⟨25, _⟩ => ⟨S16384x64x4, .f32⟩
  | .hbm, ⟨26, _⟩ => ⟨S16384x256, .f32⟩
  | .hbm, ⟨27, _⟩ => ⟨S16384x256x1, .f32⟩
  | .hbm, ⟨28, _⟩ => ⟨S1x16384x4, .f32⟩
  | .hbm, ⟨29, _⟩ => ⟨S16384x4, .f32⟩
  | .hbm, ⟨30, _⟩ => ⟨S16384x1x4, .f32⟩
  | .hbm, ⟨31, _⟩ => ⟨S16384x256x4, .f32⟩
  | .hbm, ⟨32, _⟩ => ⟨S16384x256x4, .f32⟩
  | .hbm, ⟨33, _⟩ => ⟨S16384x256x4, .f32⟩
  | .hbm, ⟨34, _⟩ => ⟨S16384x1024, .f32⟩
  | .hbm, ⟨35, _⟩ => ⟨S16384x1024x1, .f32⟩
  | .hbm, ⟨36, _⟩ => ⟨S1x16384x4, .f32⟩
  | .hbm, ⟨37, _⟩ => ⟨S16384x4, .f32⟩
  | .hbm, ⟨38, _⟩ => ⟨S16384x1x4, .f32⟩
  | .hbm, ⟨39, _⟩ => ⟨S16384x1024x4, .f32⟩
  | .hbm, ⟨40, _⟩ => ⟨S16384x1024x4, .f32⟩
  | .hbm, ⟨41, _⟩ => ⟨S16384x1024x4, .f32⟩
  | .hbm, ⟨42, _⟩ => ⟨S16384x4096, .f32⟩
  | _, _ => ⟨S6x16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩

abbrev nD : Nat := 1
abbrev τ : Topo := Topo.v7x

variable {F : FTy → Type} [FloatOps F]

class Facts₀ : Prop where
  slices_S6x16384x4_S1x16384x4_0_0_0 : S6x16384x4.Slices ![0, 0, 0] S1x16384x4
  shapeCasts_S1x16384x4_S16384x4 : S1x16384x4.ShapeCasts S16384x4
  bcast_S16384x4_S16384x4x1_0_1 : S16384x4.BroadcastsInDim S16384x4x1 (![0, 1] : Fin 2 → Fin S16384x4x1.rank)
  slices_S6x16384x4_S1x16384x4_1_0_0 : S6x16384x4.Slices ![1, 0, 0] S1x16384x4
  bcast_S16384x4_S16384x1x4_0_2 : S16384x4.BroadcastsInDim S16384x1x4 (![0, 2] : Fin 2 → Fin S16384x1x4.rank)
  bcast_S16384x4x1_S16384x4x4_0_1_2 : S16384x4x1.BroadcastsInDim S16384x4x4 (![0, 1, 2] : Fin 3 → Fin S16384x4x4.rank)
  bcast_S16384x1x4_S16384x4x4_0_1_2 : S16384x1x4.BroadcastsInDim S16384x4x4 (![0, 1, 2] : Fin 3 → Fin S16384x4x4.rank)
  shapeCasts_S16384x4x4_S16384x16 : S16384x4x4.ShapeCasts S16384x16
  bcast_S16384x16_S16384x16x1_0_1 : S16384x16.BroadcastsInDim S16384x16x1 (![0, 1] : Fin 2 → Fin S16384x16x1.rank)
  slices_S6x16384x4_S1x16384x4_2_0_0 : S6x16384x4.Slices ![2, 0, 0] S1x16384x4
  bcast_S16384x16x1_S16384x16x4_0_1_2 : S16384x16x1.BroadcastsInDim S16384x16x4 (![0, 1, 2] : Fin 3 → Fin S16384x16x4.rank)
  bcast_S16384x1x4_S16384x16x4_0_1_2 : S16384x1x4.BroadcastsInDim S16384x16x4 (![0, 1, 2] : Fin 3 → Fin S16384x16x4.rank)
  shapeCasts_S16384x16x4_S16384x64 : S16384x16x4.ShapeCasts S16384x64
  bcast_S16384x64_S16384x64x1_0_1 : S16384x64.BroadcastsInDim S16384x64x1 (![0, 1] : Fin 2 → Fin S16384x64x1.rank)
  slices_S6x16384x4_S1x16384x4_3_0_0 : S6x16384x4.Slices ![3, 0, 0] S1x16384x4
  bcast_S16384x64x1_S16384x64x4_0_1_2 : S16384x64x1.BroadcastsInDim S16384x64x4 (![0, 1, 2] : Fin 3 → Fin S16384x64x4.rank)
  bcast_S16384x1x4_S16384x64x4_0_1_2 : S16384x1x4.BroadcastsInDim S16384x64x4 (![0, 1, 2] : Fin 3 → Fin S16384x64x4.rank)
  shapeCasts_S16384x64x4_S16384x256 : S16384x64x4.ShapeCasts S16384x256
  bcast_S16384x256_S16384x256x1_0_1 : S16384x256.BroadcastsInDim S16384x256x1 (![0, 1] : Fin 2 → Fin S16384x256x1.rank)
  slices_S6x16384x4_S1x16384x4_4_0_0 : S6x16384x4.Slices ![4, 0, 0] S1x16384x4
  bcast_S16384x256x1_S16384x256x4_0_1_2 : S16384x256x1.BroadcastsInDim S16384x256x4 (![0, 1, 2] : Fin 3 → Fin S16384x256x4.rank)
  bcast_S16384x1x4_S16384x256x4_0_1_2 : S16384x1x4.BroadcastsInDim S16384x256x4 (![0, 1, 2] : Fin 3 → Fin S16384x256x4.rank)
  shapeCasts_S16384x256x4_S16384x1024 : S16384x256x4.ShapeCasts S16384x1024
  bcast_S16384x1024_S16384x1024x1_0_1 : S16384x1024.BroadcastsInDim S16384x1024x1 (![0, 1] : Fin 2 → Fin S16384x1024x1.rank)
  slices_S6x16384x4_S1x16384x4_5_0_0 : S6x16384x4.Slices ![5, 0, 0] S1x16384x4
  bcast_S16384x1024x1_S16384x1024x4_0_1_2 : S16384x1024x1.BroadcastsInDim S16384x1024x4 (![0, 1, 2] : Fin 3 → Fin S16384x1024x4.rank)
  bcast_S16384x1x4_S16384x1024x4_0_1_2 : S16384x1x4.BroadcastsInDim S16384x1024x4 (![0, 1, 2] : Fin 3 → Fin S16384x1024x4.rank)
  shapeCasts_S16384x1024x4_S16384x4096 : S16384x1024x4.ShapeCasts S16384x4096

variable [Facts₀]

class Facts : Prop extends Facts₀ where

variable [Facts]
-- ==== Proof.LibKron.lean ====
/-
  A row-wise Kronecker step, read at an index.

  Given two arrays that share a leading axis of `N` rows — `acc` with `R` columns and `mv` with `4` — the step forms,
  row by row, the array with `R * 4` columns whose column `j` holds `acc[n, j / 4] * mv[n, j % 4]`: the outer product of
  the two rows, flattened with the second factor's column running fastest.  A program spells the step by giving `acc` a
  trailing unit axis and `mv` a unit axis in the middle, broadcasting both to `[N, R, 4]`, multiplying element by element and
  collapsing the last two axes.  There are two spellings of the unit axes and of the broadcasts (a shape cast followed by a
  trailing-aligned broadcast; or a `broadcast_in_dim` that names where each axis goes, twice), and both are read here at
  an index `(n, j)` as the same function `rowStep` of row `n` of the two operands.

  The only arithmetic is that of positions: the collapsed position `j` of `[R, 4]` has coordinates `(j / 4, j % 4)`.
-/
import Idealize.ShloMosaic.Lib.ValueIdx
import Idealize.ShloMosaic.Lib.Pipeline.Value
import Idealize.ShloMosaic.PureOps.Ideal

noncomputable section

namespace Cert.Lib.Kron

open Idealize.ShloMosaic Idealize.ShloMosaic.ValueIdx

/-- One row's step: from a row `a` of `R` entries and a row `b` of `4`, the row of `R * 4` entries
    `j ↦ a (j / 4) * b (j % 4)`. -/
def rowStep {α : Type} [Mul α] {R RR : Nat} (hRR : RR = R * 4) (a : Fin R → α) (b : Fin 4 → α) : Fin RR → α :=
  fun j => a ⟨j.val / 4, by have := j.isLt; omega⟩ * b ⟨j.val % 4, Nat.mod_lt _ (by decide)⟩

/-- The step depends only on the two rows. -/
theorem rowStep_congr {α : Type} [Mul α] {R RR : Nat} (hRR : RR = R * 4) {a a' : Fin R → α} {b b' : Fin 4 → α}
    (ha : a = a') (hb : b = b') : rowStep hRR a b = rowStep hRR a' b' := by rw [ha, hb]

/-- THE STEP BY SHAPE CASTS AND TRAILING-ALIGNED BROADCASTS, at `(n, j)`: row `n` of `acc` stepped with row `n` of `mv`. -/
theorem castStep_apply {N R RR : Nat} (hRR : RR = R * 4)
    (acc : FVec Ideal ⟨2, ![N, R]⟩ .f32) (mv : FVec Ideal ⟨2, ![N, 4]⟩ .f32)
    (h1 : (⟨2, ![N, R]⟩ : Shape).ShapeCasts ⟨3, ![N, R, 1]⟩)
    (h2 : (⟨2, ![N, 4]⟩ : Shape).ShapeCasts ⟨3, ![N, 1, 4]⟩)
    (h3 : (⟨3, ![N, R, 1]⟩ : Shape).Broadcasts ⟨3, ![N, R, 4]⟩)
    (h4 : (⟨3, ![N, 1, 4]⟩ : Shape).Broadcasts ⟨3, ![N, R, 4]⟩)
    (h5 : (⟨3, ![N, R, 4]⟩ : Shape).ShapeCasts ⟨2, ![N, RR]⟩)
    (n : Fin N) (j : Fin RR) :
    shapeCast ⟨2, ![N, RR]⟩ (mulf (broadcastTo ⟨3, ![N, R, 4]⟩ (shapeCast ⟨3, ![N, R, 1]⟩ acc h1) h3)
        (broadcastTo ⟨3, ![N, R, 4]⟩ (shapeCast ⟨3, ![N, 1, 4]⟩ mv h2) h4)) h5 (ix2 n j)
      = rowStep hRR (fun a => acc (ix2 n a)) (fun b => mv (ix2 n b)) j := by
  have hj := j.isLt
  have hn := n.isLt
  have hq : j.val / 4 < R := by omega
  have hr : j.val % 4 < 4 := Nat.mod_lt _ (by decide)
  -- the collapsed position (n, j) is position (n, j / 4, j % 4) of [N, R, 4]
  refine (shapeCast_apply _ h5 (ix2 n j) (ix3 n ⟨j.val / 4, hq⟩ ⟨j.val % 4, hr⟩) ?_).trans ?_
  · rw [Shape.rowMajor_val_three, Shape.rowMajor_val_two]
    show (n.val * R + j.val / 4) * 4 + j.val % 4 = n.val * RR + j.val
    subst hRR
    have := Nat.div_add_mod j.val 4
    rw [Nat.add_mul, Nat.mul_assoc]; omega
  show broadcastTo ⟨3, ![N, R, 4]⟩ (shapeCast ⟨3, ![N, R, 1]⟩ acc h1) h3 (ix3 n ⟨j.val / 4, hq⟩ ⟨j.val % 4, hr⟩)
      * broadcastTo ⟨3, ![N, R, 4]⟩ (shapeCast ⟨3, ![N, 1, 4]⟩ mv h2) h4 (ix3 n ⟨j.val / 4, hq⟩ ⟨j.val % 4, hr⟩) = _
  have eA : broadcastTo ⟨3, ![N, R, 4]⟩ (shapeCast ⟨3, ![N, R, 1]⟩ acc h1) h3 (ix3 n ⟨j.val / 4, hq⟩ ⟨j.val % 4, hr⟩)
      = acc (ix2 n ⟨j.val / 4, hq⟩) := by
    refine (broadcastTo_apply _ h3 _ (ix3 n ⟨j.val / 4, hq⟩ (0 : Fin 1)) ?_).trans ?_
    · intro a
      match a with
      | ⟨0, _⟩ =>
        show n.val = if N = 1 then 0 else n.val
        split_ifs <;> omega
      | ⟨1, _⟩ =>
        show j.val / 4 = if R = 1 then 0 else j.val / 4
        split_ifs <;> omega
      | ⟨2, _⟩ => rfl
    · refine shapeCast_apply _ h1 _ (ix2 n ⟨j.val / 4, hq⟩) ?_
      rw [Shape.rowMajor_val_three, Shape.rowMajor_val_two]
      show n.val * R + j.val / 4 = (n.val * R + j.val / 4) * 1 + 0
      omega
  have eB : broadcastTo ⟨3, ![N, R, 4]⟩ (shapeCast ⟨3, ![N, 1, 4]⟩ mv h2) h4 (ix3 n ⟨j.val / 4, hq⟩ ⟨j.val % 4, hr⟩)
      = mv (ix2 n ⟨j.val % 4, hr⟩) := by
    refine (broadcastTo_apply _ h4 _ (ix3 n (0 : Fin 1) ⟨j.val % 4, hr⟩) ?_).trans ?_
    · intro a
      match a with
      | ⟨0, _⟩ =>
        show n.val = if N = 1 then 0 else n.val
        split_ifs <;> omega
      | ⟨1, _⟩ => rfl
      | ⟨2, _⟩ => rfl
    · refine shapeCast_apply _ h2 _ (ix2 n ⟨j.val % 4, hr⟩) ?_
      rw [Shape.rowMajor_val_three, Shape.rowMajor_val_two]
      show n.val * 4 + j.val % 4 = (n.val * 1 + 0) * 4 + j.val % 4
      omega
  rw [eA, eB]
  rfl

/-- THE STEP BY `broadcast_in_dim`, at `(n, j)`: `acc` sent to axes `0, 1` of `[N, R, 1]` and `mv` to axes `0, 2` of
    `[N, 1, 4]`, each then to `[N, R, 4]` axis for axis; the same function of the two rows. -/
theorem inDimStep_apply {N R RR : Nat} (hRR : RR = R * 4)
    (acc : FVec Ideal ⟨2, ![N, R]⟩ .f32) (mv : FVec Ideal ⟨2, ![N, 4]⟩ .f32)
    (h1 : (⟨2, ![N, R]⟩ : Shape).BroadcastsInDim ⟨3, ![N, R, 1]⟩ ![0, 1])
    (h2 : (⟨2, ![N, 4]⟩ : Shape).BroadcastsInDim ⟨3, ![N, 1, 4]⟩ ![0, 2])
    (h3 : (⟨3, ![N, R, 1]⟩ : Shape).BroadcastsInDim ⟨3, ![N, R, 4]⟩ ![0, 1, 2])
    (h4 : (⟨3, ![N, 1, 4]⟩ : Shape).BroadcastsInDim ⟨3, ![N, R, 4]⟩ ![0, 1, 2])
    (h5 : (⟨3, ![N, R, 4]⟩ : Shape).ShapeCasts ⟨2, ![N, RR]⟩)
    (n : Fin N) (j : Fin RR) :
    shapeCast ⟨2, ![N, RR]⟩ (mulf (broadcastInDim ⟨3, ![N, R, 4]⟩ ![0, 1, 2] h3 (broadcastInDim ⟨3, ![N, R, 1]⟩ ![0, 1] h1 acc))
        (broadcastInDim ⟨3, ![N, R, 4]⟩ ![0, 1, 2] h4 (broadcastInDim ⟨3, ![N, 1, 4]⟩ ![0, 2] h2 mv))) h5 (ix2 n j)
      = rowStep hRR (fun a => acc (ix2 n a)) (fun b => mv (ix2 n b)) j := by
  have hj := j.isLt
  have hn := n.isLt
  have hq : j.val / 4 < R := by omega
  have hr : j.val % 4 < 4 := Nat.mod_lt _ (by decide)
  refine (shapeCast_apply _ h5 (ix2 n j) (ix3 n ⟨j.val / 4, hq⟩ ⟨j.val % 4, hr⟩) ?_).trans ?_
  · rw [Shape.rowMajor_val_three, Shape.rowMajor_val_two]
    show (n.val * R + j.val / 4) * 4 + j.val % 4 = n.val * RR + j.val
    subst hRR
    have := Nat.div_add_mod j.val 4
    rw [Nat.add_mul, Nat.mul_assoc]; omega
  show broadcastInDim ⟨3, ![N, R, 4]⟩ ![0, 1, 2] h3 (broadcastInDim ⟨3, ![N, R, 1]⟩ ![0, 1] h1 acc) (ix3 n ⟨j.val / 4, hq⟩ ⟨j.val % 4, hr⟩)
      * broadcastInDim ⟨3, ![N, R, 4]⟩ ![0, 1, 2] h4 (broadcastInDim ⟨3, ![N, 1, 4]⟩ ![0, 2] h2 mv) (ix3 n ⟨j.val / 4, hq⟩ ⟨j.val % 4, hr⟩) = _
  have eA : broadcastInDim ⟨3, ![N, R, 4]⟩ ![0, 1, 2] h3 (broadcastInDim ⟨3, ![N, R, 1]⟩ ![0, 1] h1 acc) (ix3 n ⟨j.val / 4, hq⟩ ⟨j.val % 4, hr⟩)
      = acc (ix2 n ⟨j.val / 4, hq⟩) := by
    refine (broadcastInDim_apply _ h3 _ _ (ix3 n ⟨j.val / 4, hq⟩ (0 : Fin 1)) ?_).trans ?_
    · intro a
      match a with
      | ⟨0, _⟩ =>
        show n.val = if N = 1 then 0 else n.val
        split_ifs <;> omega
      | ⟨1, _⟩ =>
        show j.val / 4 = if R = 1 then 0 else j.val / 4
        split_ifs <;> omega
      | ⟨2, _⟩ => rfl
    · refine broadcastInDim_apply _ h1 _ _ (ix2 n ⟨j.val / 4, hq⟩) ?_
      intro a
      match a with
      | ⟨0, _⟩ =>
        show n.val = if N = 1 then 0 else n.val
        split_ifs <;> omega
      | ⟨1, _⟩ =>
        show j.val / 4 = if R = 1 then 0 else j.val / 4
        split_ifs <;> omega
  have eB : broadcastInDim ⟨3, ![N, R, 4]⟩ ![0, 1, 2] h4 (broadcastInDim ⟨3, ![N, 1, 4]⟩ ![0, 2] h2 mv) (ix3 n ⟨j.val / 4, hq⟩ ⟨j.val % 4, hr⟩)
      = mv (ix2 n ⟨j.val % 4, hr⟩) := by
    refine (broadcastInDim_apply _ h4 _ _ (ix3 n (0 : Fin 1) ⟨j.val % 4, hr⟩) ?_).trans ?_
    · intro a
      match a with
      | ⟨0, _⟩ =>
        show n.val = if N = 1 then 0 else n.val
        split_ifs <;> omega
      | ⟨1, _⟩ => rfl
      | ⟨2, _⟩ => rfl
    · refine broadcastInDim_apply _ h2 _ _ (ix2 n ⟨j.val % 4, hr⟩) ?_
      intro a
      match a with
      | ⟨0, _⟩ =>
        show n.val = if N = 1 then 0 else n.val
        split_ifs <;> omega
      | ⟨1, _⟩ => rfl
  rw [eA, eB]
  rfl

/-! ## One slab of a rank-3 array, viewed as a matrix

Slab `k` of a `[K, N, C]` array — the `[1, N, C]` piece at leading offset `k` — with its unit axis dropped is the matrix
`(n, b) ↦ X (k, n, b)`, whether the piece is taken by a load through a unit-stride rectangle or by a slice. -/

/-- The slab taken by a LOAD through the rectangle at offsets `(k, 0, 0)`. -/
theorem ldSlab_apply {Val : EltTy → Type} {e : EltTy} {K N C : Nat} (X : (⟨3, ![K, N, C]⟩ : Shape).Idx → Val e)
    (k : Nat) (hk : k < K)
    (inb : ∀ a, (![k, 0, 0] : Fin 3 → Nat) a + (⟨3, ![1, N, C]⟩ : Shape).size a ≤ (⟨3, ![K, N, C]⟩ : Shape).size a)
    (h : (⟨3, ![1, N, C]⟩ : Shape).ShapeCasts ⟨2, ![N, C]⟩) (n : Fin N) (b : Fin C) :
    shapeCast ⟨2, ![N, C]⟩ (View.ld X (Rect.unit (s := ⟨3, ![K, N, C]⟩) ![k, 0, 0] (⟨3, ![1, N, C]⟩ : Shape).size inb)) h (ix2 n b)
      = X (ix3 ⟨k, hk⟩ n b) := by
  refine (shapeCast_apply _ h (ix2 n b) (ix3 (0 : Fin 1) n b) ?_).trans ?_
  · rw [Shape.rowMajor_val_three, Shape.rowMajor_val_two]
    show (0 * N + n.val) * C + b.val = n.val * C + b.val
    simp
  · show X ((Rect.unit (s := ⟨3, ![K, N, C]⟩) ![k, 0, 0] (⟨3, ![1, N, C]⟩ : Shape).size inb).idx (ix3 (0 : Fin 1) n b)) = _
    refine congrArg X (funext fun a => Fin.ext ?_)
    match a with
    | ⟨0, _⟩ => show k + 1 * 0 = k; omega
    | ⟨1, _⟩ => show 0 + 1 * n.val = n.val; omega
    | ⟨2, _⟩ => show 0 + 1 * b.val = b.val; omega

/-- The slab taken by a SLICE at offsets `(k, 0, 0)`. -/
theorem sliceSlab_apply {α : Type} {K N C : Nat} (X : (⟨3, ![K, N, C]⟩ : Shape).Idx → α)
    (k : Nat) (hk : k < K)
    (hs : (⟨3, ![K, N, C]⟩ : Shape).Slices ![k, 0, 0] ⟨3, ![1, N, C]⟩)
    (h : (⟨3, ![1, N, C]⟩ : Shape).ShapeCasts ⟨2, ![N, C]⟩) (n : Fin N) (b : Fin C) :
    shapeCast ⟨2, ![N, C]⟩ (extractStridedSlice ⟨3, ![1, N, C]⟩ ![k, 0, 0] X hs) h (ix2 n b) = X (ix3 ⟨k, hk⟩ n b) := by
  refine (shapeCast_apply _ h (ix2 n b) (ix3 (0 : Fin 1) n b) ?_).trans ?_
  · rw [Shape.rowMajor_val_three, Shape.rowMajor_val_two]
    show (0 * N + n.val) * C + b.val = n.val * C + b.val
    simp
  · refine extractStridedSlice_apply _ X hs _ (ix3 ⟨k, hk⟩ n b) ?_
    intro a
    match a with
    | ⟨0, _⟩ => show k = k + 0; omega
    | ⟨1, _⟩ => show n.val = 0 + n.val; omega
    | ⟨2, _⟩ => show b.val = 0 + b.val; omega

end Cert.Lib.Kron

end
-- ==== Proof.Spec.lean ====
/-
  The rule activations as ONE function of the membership array.

  The input holds, for each of six fuzzy variables `v` and each sample `n`, the four membership degrees
  `X (v, n, 0..3)`.  A rule picks one fuzzy set per variable; its index `r < 4096 = 4^6` lists the six choices as base-4
  digits, the last variable's digit running fastest.  The activation of rule `r` on sample `n` is the product of the six
  chosen degrees, multiplied from the first variable to the last:
  `((((X(0,n,d0) * X(1,n,d1)) * X(2,n,d2)) * X(3,n,d3)) * X(4,n,d4)) * X(5,n,d5)`.

  It is written as five row-wise Kronecker steps (`Cert.Lib.Kron.rowStep`): the row of 4 degrees of variable 0 is stepped with
  variable 1's row to 16 entries, that with variable 2's to 64, and so on to 4096.  Both programs build the result in exactly
  this order, so no law of the extended reals is needed to compare them, only the bookkeeping of positions.
-/
import proofs.«157492_j11647951306867_1_alg».proof.Proof.LibKron

noncomputable section

namespace Cert.Spec

open Idealize.ShloMosaic Idealize.ShloMosaic.ValueIdx Cert.Lib.Kron

/-- Six rows of four degrees, stepped together from the first to the last: 4 → 16 → 64 → 256 → 1024 → 4096 entries. -/
def kron6 (f : Fin 6 → Fin 4 → EReal) : Fin 4096 → EReal :=
  rowStep (R := 1024) rfl (rowStep (R := 256) (RR := 1024) rfl (rowStep (R := 64) (RR := 256) rfl
    (rowStep (R := 16) (RR := 64) rfl (rowStep (R := 4) (RR := 16) rfl (f 0) (f 1)) (f 2)) (f 3)) (f 4)) (f 5)

/-- The six membership rows of sample `n`. -/
def rows {N : Nat} (X : FVec Ideal ⟨3, ![6, N, 4]⟩ .f32) (n : Fin N) : Fin 6 → Fin 4 → EReal :=
  fun v a => X (ix3 v n a)

/-- THE RESULT: entry `(n, r)` is rule `r`'s activation on sample `n`. Stated for any number `N` of samples, so that it
    reads a block of samples as it reads the whole array. -/
def activations {N : Nat} (X : FVec Ideal ⟨3, ![6, N, 4]⟩ .f32) : FVec Ideal ⟨2, ![N, 4096]⟩ .f32 :=
  fun i => kron6 (rows X (i 0)) (i 1)

theorem activations_apply {N : Nat} (X : FVec Ideal ⟨3, ![6, N, 4]⟩ .f32) (n : Fin N) (r : Fin 4096) :
    activations X (ix2 n r) = kron6 (rows X n) r := rfl

/-- The result on sample `n` depends only on that sample's rows: two arrays (with any numbers of samples) whose rows
    agree at `n` and `n'` have the same activations there. -/
theorem activations_congr {N N' : Nat} (X : FVec Ideal ⟨3, ![6, N, 4]⟩ .f32) (X' : FVec Ideal ⟨3, ![6, N', 4]⟩ .f32)
    (n : Fin N) (n' : Fin N') (h : ∀ v a, X (ix3 v n a) = X' (ix3 v n' a)) (r : Fin 4096) :
    activations X (ix2 n r) = activations X' (ix2 n' r) := by
  rw [activations_apply, activations_apply]
  have : rows X n = rows X' n' := funext fun v => funext fun a => h v a
  rw [this]

end Cert.Spec

end
-- ==== Proof.KernelValue.lean ====
/-
  What the idealized kernel leaves in its result array.

  The kernel walks the 16384 samples in 64 blocks of 256.  At block `t` it reads the six `[256, 4]` membership slabs of the
  samples `256 t … 256 t + 255` and builds, by five row-wise Kronecker steps spelt with shape casts and broadcasts, the
  `[256, 4096]` tile of rule activations of those samples, which it stores whole.  So the tile at block `t` is the activations
  of the block's own slab (`tile_eq`), a sample's activations depend only on that sample's six rows, and row `p` of block
  `t` is row `256 t + p` of the array: what block `t` writes back is block `t` of the activations of the whole input
  (`written_eq`).  The 64 blocks tile the result (`covered`), hence the result array is the activations of the input
  (`result_eq`, `run`).
-/
import proofs.«157492_j11647951306867_1_alg».proof.Proof.Gen.KernelIdeal.Value
import proofs.«157492_j11647951306867_1_alg».proof.Proof.Spec

set_option maxRecDepth 16384

noncomputable section

namespace Cert.KernelIdeal.Activations

open Cert.KernelIdeal Cert.KernelIdeal.Gen Idealize.ShloMosaic Idealize.ShloMosaic.TcCoe Idealize.SL.Sem
open Idealize.ShloMosaic.ValueIdx Cert.Lib.Kron Cert.Spec
open Idealize.ShloMosaic.Pipeline (Dat)

/-- The tile the body stores, as a function of the block's slab: the slab's activations.  Each of the five steps is read by
    `castStep_apply`, outermost first; each variable's `[256, 4]` operand is that variable's slab of the block. -/
theorem tile_eq (x0 : Vec Ideal S6x256x4 .f32) :
    k0_pay1 (k0_pay2 (View.ld x0 r0_0) (View.ld x0 r0_1) (View.ld x0 r0_2) (View.ld x0 r0_3) (View.ld x0 r0_4) (View.ld x0 r0_5))
      = activations (N := 256) x0 := by
  funext i
  obtain ⟨p, r, rfl⟩ : ∃ (p : Fin 256) (r : Fin 4096), i = ix2 p r := ⟨i 0, i 1, eq_ix2 i⟩
  rw [activations_apply]
  unfold kron6 k0_pay1 k0_pay2
  dsimp only
  refine (castStep_apply (N := 256) (R := 1024) (RR := 4096) rfl _ _ _ _ _ _ _ p r).trans ?_
  refine congrFun (rowStep_congr _ (funext fun a5 => ?_) (funext fun b => ?_)) r
  · refine (castStep_apply (N := 256) (R := 256) (RR := 1024) rfl _ _ _ _ _ _ _ p a5).trans ?_
    refine congrFun (rowStep_congr _ (funext fun a4 => ?_) (funext fun b => ?_)) a5
    · refine (castStep_apply (N := 256) (R := 64) (RR := 256) rfl _ _ _ _ _ _ _ p a4).trans ?_
      refine congrFun (rowStep_congr _ (funext fun a3 => ?_) (funext fun b => ?_)) a4
      · refine (castStep_apply (N := 256) (R := 16) (RR := 64) rfl _ _ _ _ _ _ _ p a3).trans ?_
        refine congrFun (rowStep_congr _ (funext fun a2 => ?_) (funext fun b => ?_)) a3
        · refine (castStep_apply (N := 256) (R := 4) (RR := 16) rfl _ _ _ _ _ _ _ p a2).trans ?_
          refine congrFun (rowStep_congr _ (funext fun a1 => ?_) (funext fun b => ?_)) a2
          · exact ldSlab_apply (K := 6) (N := 256) (C := 4) x0 0 (by decide) _ _ p a1
          · exact ldSlab_apply (K := 6) (N := 256) (C := 4) x0 1 (by decide) _ _ p b
        · exact ldSlab_apply (K := 6) (N := 256) (C := 4) x0 2 (by decide) _ _ p b
      · exact ldSlab_apply (K := 6) (N := 256) (C := 4) x0 3 (by decide) _ _ p b
    · exact ldSlab_apply (K := 6) (N := 256) (C := 4) x0 4 (by decide) _ _ p b
  · exact ldSlab_apply (K := 6) (N := 256) (C := 4) x0 5 (by decide) _ _ p b

variable (m : (ℓ : Loc nD τ sig) → Buf (Elt Ideal) ℓ) (ρ : Dev nD → PrngReg)

/-- The membership array as the region finds it, and the slab of it that block `t` stages, at their literal types. -/
abbrev memberships (c : Dev nD) : Vec Ideal S6x16384x4 .f32 := V m c main_arg0
abbrev slab (c : Dev nD) (t : Fin cfg0.N) : Vec Ideal S6x256x4 .f32 := iblk m c 0 t

theorem hz : (![0, 0] : Fin 2 → Nat) = fun _ => 0 := funext fun a => by fin_cases a <;> rfl

/-- Where the two windows' blocks sit at grid point `t`: the input's block index is `(0, t, 0)`, the output's `(t, 0)`. -/
theorem block_index : ∀ t : Fin cfg0.N, win0_0.index t (0 : Fin 3) = 0 ∧ win0_0.index t (1 : Fin 3) = t.val
    ∧ win0_0.index t (2 : Fin 3) = 0 ∧ win0_1.index t (0 : Fin 2) = t.val ∧ win0_1.index t (1 : Fin 2) = 0 :=
  (by decide +kernel : ∀ t : Fin grid0.N, _)

/-- WHAT BLOCK `t` WRITES BACK is block `t` of the activations of the whole membership array. -/
theorem written_eq (c : Dev nD) (t : Fin cfg0.N) :
    (dats m 0 c).flushed 1 t = ((cfg0.win 1).blk t).view.read (Elt Ideal) (activations (N := 16384) (memberships m c)) := by
  rw [Value.flushed1]
  unfold out0_1
  rw [View.canon_unit_zero hz]
  obtain ⟨e0, e1, e2, e3, e4⟩ := block_index t
  have ht : t.val < 64 := Nat.lt_of_lt_of_eq t.isLt N_0
  funext j
  obtain ⟨p, r, rfl⟩ : ∃ (p : Fin 256) (r : Fin 4096), j = ix2 p r := ⟨j 0, j 1, eq_ix2 j⟩
  have hp := p.isLt
  have hrow : t.val * 256 + p.val < 16384 := by omega
  show k0_pay1 (k0_pay2 (View.ld (slab m c t) r0_0) (View.ld (slab m c t) r0_1) (View.ld (slab m c t) r0_2)
        (View.ld (slab m c t) r0_3) (View.ld (slab m c t) r0_4) (View.ld (slab m c t) r0_5)) (ix2 p r)
      = activations (N := 16384) (memberships m c) (((cfg0.win 1).blk t).view.emb (ix2 p r))
  refine (congrFun (tile_eq (slab m c t)) (ix2 p r)).trans ?_
  -- row p of block t is row 256 t + p of the array, and the tile spans all 4096 columns
  have hpos : ((cfg0.win 1).blk t).view.emb (ix2 p r) = ix2 (⟨t.val * 256 + p.val, hrow⟩ : Fin 16384) r := by
    funext a; apply Fin.ext
    match a with
    | ⟨0, _⟩ => show win0_1.index t (0 : Fin 2) * 256 + 1 * p.val = t.val * 256 + p.val; omega
    | ⟨1, _⟩ => show win0_1.index t (1 : Fin 2) * 4096 + 1 * r.val = r.val; omega
  rw [hpos]
  refine activations_congr (slab m c t) (memberships m c) p ⟨t.val * 256 + p.val, hrow⟩ (fun v a => ?_) r
  -- the block's slab holds the array's rows 256 t … 256 t + 255, for every variable and fuzzy set
  show V m c main_arg0 (((cfg0.win 0).blk t).view.emb (ix3 v p a)) = V m c main_arg0 (ix3 v ⟨t.val * 256 + p.val, hrow⟩ a)
  refine congrArg (V m c main_arg0) (funext fun d => Fin.ext ?_)
  match d with
  | ⟨0, _⟩ => show win0_0.index t (0 : Fin 3) * 6 + 1 * v.val = v.val; omega
  | ⟨1, _⟩ => show win0_0.index t (1 : Fin 3) * 256 + 1 * p.val = t.val * 256 + p.val; omega
  | ⟨2, _⟩ => show win0_0.index t (2 : Fin 3) * 4 + 1 * a.val = a.val; omega

/-- An index of the result array lies in block `t` iff each coordinate lies in the block's range on its axis. -/
theorem mem_block (t : Fin cfg0.N) (i : S16384x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v0).slice (win0_1.rect t)).set ↔ _
  rw [View.set_slice_whole, Rect.mem_set_unit]
  exact Iff.rfl

/-- The 64 blocks tile the result: sample `n` lies in block `n / 256`. -/
theorem covered (i : S16384x4096.Idx) :
    ∃ t : Fin cfg0.N, (cfg0.win 1).flush t = true ∧ i ∈ ((cfg0.win 1).blk t).view.set := by
  have hi0 : (i 0).val < 16384 := (i 0).isLt
  have hi1 : (i 1).val < 4096 := (i 1).isLt
  have hq : (i 0).val / 256 < 64 := by omega
  refine ⟨⟨(i 0).val / 256, Nat.lt_of_lt_of_eq hq N_0.symm⟩, flush0_1 _, ?_⟩
  obtain ⟨e0, e1, e2, e3, e4⟩ := block_index ⟨(i 0).val / 256, Nat.lt_of_lt_of_eq hq N_0.symm⟩
  have e3' : win0_1.index ⟨(i 0).val / 256, Nat.lt_of_lt_of_eq hq N_0.symm⟩ (0 : Fin 2) = (i 0).val / 256 := e3
  rw [mem_block]
  intro a
  match a with
  | ⟨0, _⟩ =>
    show win0_1.index ⟨(i 0).val / 256, _⟩ (0 : Fin 2) * 256 ≤ (i 0).val
      ∧ (i 0).val < win0_1.index ⟨(i 0).val / 256, _⟩ (0 : Fin 2) * 256 + 256
    omega
  | ⟨1, _⟩ =>
    show win0_1.index ⟨(i 0).val / 256, _⟩ (1 : Fin 2) * 4096 ≤ (i 1).val
      ∧ (i 1).val < win0_1.index ⟨(i 0).val / 256, _⟩ (1 : Fin 2) * 4096 + 4096
    omega

/-- THE RESULT ARRAY after the run: the activations of the membership array. -/
theorem result_eq (c : Dev nD) :
    (dats m 0 c).arrAt 1 cfg0.N = activations (N := 16384) (memberships m c) :=
  (dats m 0 c).arrAt_eq_of_cover 1 (activations (N := 16384) (memberships m c)) (fun t _ => written_eq m c t) covered

/-- The kernel's run with the result named: it ends at the activations of the membership array as launched, the argument
    unchanged. -/
theorem run : θ_run defs (onTc (τ := τ) (main (F := Ideal))) ⟨m, fun _ => 0, ρ⟩ fun r => ∀ c : Dev nD,
      r.2.mem ((c : Thread nD τ).loc main_v0) = activations (N := 16384) (m ((c : Thread nD τ).loc main_arg0))
      ∧ r.2.mem ((c : Thread nD τ).loc main_arg0) = m ((c : Thread nD τ).loc main_arg0) :=
  (θ_run defs _ _).mono (fun r h c => ⟨(h c).1.trans (result_eq m c), (h c).2⟩) (Value.run_blocks m ρ)

end Cert.KernelIdeal.Activations

end
-- ==== Proof.RefValue.lean ====
/-
  What the idealized reference computes.

  The reference slices the six `[16384, 4]` membership matrices out of the input and folds them, first to last, by five
  row-wise Kronecker steps spelt with `broadcast_in_dim`, a product and a reshape: the activations of the input, by
  `inDimStep_apply` read outermost step first, each variable's operand being that variable's slab of the input.
-/
import proofs.«157492_j11647951306867_1_alg».proof.Proof.Gen.ReferenceIdeal.Run
import proofs.«157492_j11647951306867_1_alg».proof.Proof.Spec

set_option maxRecDepth 16384

noncomputable section

namespace Cert.ReferenceIdeal.Activations

open Cert.ReferenceIdeal Cert.ReferenceIdeal.Gen Idealize.ShloMosaic Idealize.ShloMosaic.TcCoe Idealize.SL.Sem
open Idealize.ShloMosaic.ValueIdx Cert.Lib.Kron Cert.Spec

/-- The composed term of the reference's 42 host operations, of the input `X`, is the activations of `X`. -/
theorem result_eq (X : FVec Ideal S6x16384x4 .f32) :
    shapeCast _ (mulf (broadcastInDim S16384x1024x4 ![0, 1, 2] bcast_S16384x1024x1_S16384x1024x4_0_1_2 (broadcastInDim S16384x1024x1 ![0, 1] bcast_S16384x1024_S16384x1024x1_0_1 (shapeCast _ (mulf (broadcastInDim S16384x256x4 ![0, 1, 2] bcast_S16384x256x1_S16384x256x4_0_1_2 (broadcastInDim S16384x256x1 ![0, 1] bcast_S16384x256_S16384x256x1_0_1 (shapeCast _ (mulf (broadcastInDim S16384x64x4 ![0, 1, 2] bcast_S16384x64x1_S16384x64x4_0_1_2 (broadcastInDim S16384x64x1 ![0, 1] bcast_S16384x64_S16384x64x1_0_1 (shapeCast _ (mulf (broadcastInDim S16384x16x4 ![0, 1, 2] bcast_S16384x16x1_S16384x16x4_0_1_2 (broadcastInDim S16384x16x1 ![0, 1] bcast_S16384x16_S16384x16x1_0_1 (shapeCast _ (mulf (broadcastInDim S16384x4x4 ![0, 1, 2] bcast_S16384x4x1_S16384x4x4_0_1_2 (broadcastInDim S16384x4x1 ![0, 1] bcast_S16384x4_S16384x4x1_0_1 (shapeCast _ (extractStridedSlice S1x16384x4 ![0, 0, 0] X slices_S6x16384x4_S1x16384x4_0_0_0) shapeCasts_S1x16384x4_S16384x4))) (broadcastInDim S16384x4x4 ![0, 1, 2] bcast_S16384x1x4_S16384x4x4_0_1_2 (broadcastInDim S16384x1x4 ![0, 2] bcast_S16384x4_S16384x1x4_0_2 (shapeCast _ (extractStridedSlice S1x16384x4 ![1, 0, 0] X slices_S6x16384x4_S1x16384x4_1_0_0) shapeCasts_S1x16384x4_S16384x4)))) shapeCasts_S16384x4x4_S16384x16))) (broadcastInDim S16384x16x4 ![0, 1, 2] bcast_S16384x1x4_S16384x16x4_0_1_2 (broadcastInDim S16384x1x4 ![0, 2] bcast_S16384x4_S16384x1x4_0_2 (shapeCast _ (extractStridedSlice S1x16384x4 ![2, 0, 0] X slices_S6x16384x4_S1x16384x4_2_0_0) shapeCasts_S1x16384x4_S16384x4)))) shapeCasts_S16384x16x4_S16384x64))) (broadcastInDim S16384x64x4 ![0, 1, 2] bcast_S16384x1x4_S16384x64x4_0_1_2 (broadcastInDim S16384x1x4 ![0, 2] bcast_S16384x4_S16384x1x4_0_2 (shapeCast _ (extractStridedSlice S1x16384x4 ![3, 0, 0] X slices_S6x16384x4_S1x16384x4_3_0_0) shapeCasts_S1x16384x4_S16384x4)))) shapeCasts_S16384x64x4_S16384x256))) (broadcastInDim S16384x256x4 ![0, 1, 2] bcast_S16384x1x4_S16384x256x4_0_1_2 (broadcastInDim S16384x1x4 ![0, 2] bcast_S16384x4_S16384x1x4_0_2 (shapeCast _ (extractStridedSlice S1x16384x4 ![4, 0, 0] X slices_S6x16384x4_S1x16384x4_4_0_0) shapeCasts_S1x16384x4_S16384x4)))) shapeCasts_S16384x256x4_S16384x1024))) (broadcastInDim S16384x1024x4 ![0, 1, 2] bcast_S16384x1x4_S16384x1024x4_0_1_2 (broadcastInDim S16384x1x4 ![0, 2] bcast_S16384x4_S16384x1x4_0_2 (shapeCast _ (extractStridedSlice S1x16384x4 ![5, 0, 0] X slices_S6x16384x4_S1x16384x4_5_0_0) shapeCasts_S1x16384x4_S16384x4)))) shapeCasts_S16384x1024x4_S16384x4096
      = activations (N := 16384) X := by
  funext i
  obtain ⟨n, r, rfl⟩ : ∃ (n : Fin 16384) (r : Fin 4096), i = ix2 n r := ⟨i 0, i 1, eq_ix2 i⟩
  rw [activations_apply]
  unfold kron6
  refine (inDimStep_apply (N := 16384) (R := 1024) (RR := 4096) rfl _ _ _ _ _ _ _ n r).trans ?_
  refine congrFun (rowStep_congr _ (funext fun a5 => ?_) (funext fun b => ?_)) r
  · refine (inDimStep_apply (N := 16384) (R := 256) (RR := 1024) rfl _ _ _ _ _ _ _ n a5).trans ?_
    refine congrFun (rowStep_congr _ (funext fun a4 => ?_) (funext fun b => ?_)) a5
    · refine (inDimStep_apply (N := 16384) (R := 64) (RR := 256) rfl _ _ _ _ _ _ _ n a4).trans ?_
      refine congrFun (rowStep_congr _ (funext fun a3 => ?_) (funext fun b => ?_)) a4
      · refine (inDimStep_apply (N := 16384) (R := 16) (RR := 64) rfl _ _ _ _ _ _ _ n a3).trans ?_
        refine congrFun (rowStep_congr _ (funext fun a2 => ?_) (funext fun b => ?_)) a3
        · refine (inDimStep_apply (N := 16384) (R := 4) (RR := 16) rfl _ _ _ _ _ _ _ n a2).trans ?_
          refine congrFun (rowStep_congr _ (funext fun a1 => ?_) (funext fun b => ?_)) a2
          · exact sliceSlab_apply (K := 6) (N := 16384) (C := 4) X 0 (by decide) _ _ n a1
          · exact sliceSlab_apply (K := 6) (N := 16384) (C := 4) X 1 (by decide) _ _ n b
        · exact sliceSlab_apply (K := 6) (N := 16384) (C := 4) X 2 (by decide) _ _ n b
      · exact sliceSlab_apply (K := 6) (N := 16384) (C := 4) X 3 (by decide) _ _ n b
    · exact sliceSlab_apply (K := 6) (N := 16384) (C := 4) X 4 (by decide) _ _ n b
  · exact sliceSlab_apply (K := 6) (N := 16384) (C := 4) X 5 (by decide) _ _ n b

end Cert.ReferenceIdeal.Activations

end
-- ==== Proof.lean ====
/-
  The kernel and its reference compute the same fuzzy-rule activations.

  Input: for six fuzzy variables and 16384 samples, four membership degrees each.  Output: for every sample, the 4096
  products of one degree per variable, the six factors multiplied from the first variable to the last and the last
  variable's choice running fastest along the output row (Proof/Spec.lean, `activations`).

  The reference folds the six `[16384, 4]` matrices by five row-wise Kronecker steps; the kernel does the same on blocks of
  256 samples.  One step, in either spelling, reads at an index as the same function of one row of each operand
  (Proof/LibKron.lean), so the reference's term is the activations of the input (Proof/RefValue.lean) and each tile the kernel
  stores is the activations of its block's slab (Proof/KernelValue.lean).  A sample's activations depend on that sample's
  rows only, and the 64 tiles fill the result, so the kernel's result array is the activations of the input as well.  The
  factors are multiplied in the same order on both sides: nothing is asked of the extended reals' arithmetic, and the
  inputs' finiteness is never used.

  The three frames are the generated ones (the reference's is its run with the result forgotten); the kernel's
  idealization rewrote nothing, so `preserves` has nothing to show.
-/
import proofs.«157492_j11647951306867_1_alg».proof.Defs
import proofs.«157492_j11647951306867_1_alg».proof.Proof.Gen.Kernel
import proofs.«157492_j11647951306867_1_alg».proof.Proof.Gen.Kernel.Skeleton
import proofs.«157492_j11647951306867_1_alg».proof.Proof.Gen.Kernel.Launch
import proofs.«157492_j11647951306867_1_alg».proof.Proof.Gen.Kernel.Points
import proofs.«157492_j11647951306867_1_alg».proof.Proof.Gen.Kernel.Frame
import proofs.«157492_j11647951306867_1_alg».proof.Proof.Gen.KernelIdeal
import proofs.«157492_j11647951306867_1_alg».proof.Proof.Gen.KernelIdeal.Skeleton
import proofs.«157492_j11647951306867_1_alg».proof.Proof.Gen.KernelIdeal.Launch
import proofs.«157492_j11647951306867_1_alg».proof.Proof.Gen.KernelIdeal.Points
import proofs.«157492_j11647951306867_1_alg».proof.Proof.Gen.KernelIdeal.Frame
import proofs.«157492_j11647951306867_1_alg».proof.Proof.Gen.ReferenceIdeal
import proofs.«157492_j11647951306867_1_alg».proof.Proof.Gen.Pre_finite_inputs
import proofs.«157492_j11647951306867_1_alg».proof.Proof.Gen.KernelIdeal.Value
import proofs.«157492_j11647951306867_1_alg».proof.Proof.Gen.ReferenceIdeal.Run
import proofs.«157492_j11647951306867_1_alg».proof.Proof.KernelValue
import proofs.«157492_j11647951306867_1_alg».proof.Proof.RefValue
import Idealize.ShloMosaic.Adequacy
import Idealize.ShloMosaic.Init

noncomputable section

namespace Cert.Proof

open Idealize.ShloMosaic Idealize.SL.Sem Cert.Spec

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its argument: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the membership array, both runs end with the activations of that array. -/
theorem algebraic : Cert.algebraic_KernelIdeal_ReferenceIdeal := by
  intro m ρ m' ρ' _ hagree
  refine ⟨fun c => activations (N := 16384) (m ((c.tc : Thread Cert.KernelIdeal.nD Cert.KernelIdeal.τ).loc Cert.KernelIdeal.main_arg0)),
    Cert.KernelIdeal.Activations.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Activations.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
